-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S512x2048 : Shape := ⟨2, ![512, 2048]⟩
abbrev S512x512 : Shape := ⟨2, ![512, 512]⟩
abbrev S512 : Shape := ⟨1, ![512]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S16384x2048 .f32) (main_arg1 : FVec F S512x2048 .f32) (main_arg2 : FVec F S512x512 .f32) (main_arg3 : FVec F S512 .f32) (main_arg4 : FVec F S512 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S16384x2048 : Shape := ⟨2, ![16384, 2048]⟩
abbrev S512x2048 : Shape := ⟨2, ![512, 2048]⟩
abbrev S512x512 : Shape := ⟨2, ![512, 512]⟩
abbrev S512 : Shape := ⟨1, ![512]⟩
abbrev S2048x512 : Shape := ⟨2, ![2048, 512]⟩
abbrev S1x512 : Shape := ⟨2, ![1, 512]⟩
abbrev S16384x512 : Shape := ⟨2, ![16384, 512]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S512x2048, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S2048x512, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S16384x512, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x2048_S2048x512_1_0 : S512x2048.Transposes [1, 0] S2048x512
  transposes_S512x512_S512x512_1_0 : S512x512.Transposes [1, 0] S512x512
  shapeCasts_S512_S1x512 : S512.ShapeCasts S1x512
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  natLt_1_32 : 1 < 32
  dot_S512x2048_S2048x512_S512x512_1_0_0_1_n_n_wf : DotDims.WF S512x2048 S2048x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S512x2048 : Shape := ⟨2, ![512, 2048]⟩
abbrev S512x512 : Shape := ⟨2, ![512, 512]⟩
abbrev S512 : Shape := ⟨1, ![512]⟩
abbrev S2048x512 : Shape := ⟨2, ![2048, 512]⟩
abbrev S16384x512 : Shape := ⟨2, ![16384, 512]⟩
abbrev S_ : Shape := ⟨0, ![]⟩

abbrev nBuf : Space → Nat
  | .hbm => 299
  | .vmem => 0
  | .smem => 0
  | _ => 0

abbrev hbmTy0_0 (i : Nat) : BufTy := match i % 128 with
  | 0 => ⟨S16384x2048, .f32⟩
  | 1 => ⟨S512x2048, .f32⟩
  | 2 => ⟨S512x512, .f32⟩
  | 3 => ⟨S512, .f32⟩
  | 4 => ⟨S512, .f32⟩
  | 5 => ⟨S2048x512, .f32⟩
  | 6 => ⟨S16384x512, .f32⟩
  | 7 => ⟨S_, .f32⟩
  | 8 => ⟨S16384x512, .f32⟩
  | 9 => ⟨S16384x512, .f32⟩
  | 10 => ⟨S16384x512, .f32⟩
  | 11 => ⟨S16384x512, .f32⟩
  | 12 => ⟨S_, .f32⟩
  | 13 => ⟨S16384x512, .f32⟩
  | 14 => ⟨S_, .f32⟩
  | 15 => ⟨S16384x512, .f32⟩
  | 16 => ⟨S16384x512, .i1⟩
  | 17 => ⟨S16384x512, .f32⟩
  | 18 => ⟨S512x512, .f32⟩
  | 19 => ⟨S16384x512, .f32⟩
  | 20 => ⟨S16384x512, .f32⟩
  | 21 => ⟨S_, .f32⟩
  | 22 => ⟨S16384x512, .f32⟩
  | 23 => ⟨S16384x512, .f32⟩
  | 24 => ⟨S16384x512, .f32⟩
  | 25 => ⟨S_, .f32⟩
  | 26 => ⟨S16384x512, .f32⟩
  | 27 => ⟨S16384x512, .f32⟩
  | 28 => ⟨S16384x512, .f32⟩
  | 29 => ⟨S_, .f32⟩
  | 30 => ⟨S16384x512, .f32⟩
  | 31 => ⟨S16384x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S16384x512, .f32⟩
  | 49 => ⟨S_, .f32⟩
  | 50 => ⟨S16384x512, .f32⟩
  | 51 => ⟨S16384x512, .i1⟩
  | 52 => ⟨S16384x512, .f32⟩
  | 53 => ⟨S_, .f32⟩
  | 54 => ⟨S16384x512, .f32⟩
  | 55 => ⟨S16384x512, .i1⟩
  | 56 => ⟨S_, .f32⟩
  | 57 => ⟨S16384x512, .f32⟩
  | 58 => ⟨S16384x512, .f32⟩
  | 59 => ⟨S_, .f32⟩
  | 60 => ⟨S16384x512, .f32⟩
  | 61 => ⟨S16384x512, .f32⟩
  | 62 => ⟨S16384x512, .f32⟩
  | 63 => ⟨S_, .f32⟩
  | 64 => ⟨S_, .f32⟩
  | 65 => ⟨S_, .f32⟩
  | 66 => ⟨S16384x512, .f32⟩
  | 67 => ⟨S16384x512, .f32⟩
  | 68 => ⟨S_, .f32⟩
  | 69 => ⟨S16384x512, .f32⟩
  | 70 => ⟨S16384x512, .f32⟩
  | 71 => ⟨S_, .f32⟩
  | 72 => ⟨S16384x512, .f32⟩
  | 73 => ⟨S16384x512, .i1⟩
  | 74 => ⟨S16384x512, .f32⟩
  | 75 => ⟨S512x512, .f32⟩
  | 76 => ⟨S16384x512, .f32⟩
  | 77 => ⟨S16384x512, .f32⟩
  | 78 => ⟨S_, .f32⟩
  | 79 => ⟨S16384x512, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S16384x512, .f32⟩
  | 90 => ⟨S16384x512, .f32⟩
  | 91 => ⟨S_, .f32⟩
  | 92 => ⟨S16384x512, .f32⟩
  | 93 => ⟨S16384x512, .f32⟩
  | 94 => ⟨S16384x512, .f32⟩
  | 95 => ⟨S_, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S16384x512, .f32⟩
  | 102 => ⟨S_, .f32⟩
  | 103 => ⟨S16384x512, .f32⟩
  | 104 => ⟨S16384x512, .f32⟩
  | 105 => ⟨S16384x512, .f32⟩
  | 106 => ⟨S_, .f32⟩
  | 107 => ⟨S16384x512, .f32⟩
  | 108 => ⟨S16384x512, .i1⟩
  | 109 => ⟨S16384x512, .f32⟩
  | 110 => ⟨S_, .f32⟩
  | 111 => ⟨S16384x512, .f32⟩
  | 112 => ⟨S16384x512, .i1⟩
  | 113 => ⟨S_, .f32⟩
  | 114 => ⟨S16384x512, .f32⟩
  | 115 => ⟨S16384x512, .f32⟩
  | 116 => ⟨S_, .f32⟩
  | 117 => ⟨S16384x512, .f32⟩
  | 118 => ⟨S16384x512, .f32⟩
  | 119 => ⟨S16384x512, .f32⟩
  | 120 => ⟨S_, .f32⟩
  | 121 => ⟨S_, .f32⟩
  | 122 => ⟨S_, .f32⟩
  | 123 => ⟨S16384x512, .f32⟩
  | 124 => ⟨S16384x512, .f32⟩
  | 125 => ⟨S_, .f32⟩
  | 126 => ⟨S16384x512, .f32⟩
  | 127 => ⟨S16384x512, .f32⟩
  | _ => ⟨S16384x2048, .f32⟩

abbrev hbmTy0_1 (i : Nat) : BufTy := match i % 128 with
  | 0 => ⟨S_, .f32⟩
  | 1 => ⟨S16384x512, .f32⟩
  | 2 => ⟨S16384x512, .i1⟩
  | 3 => ⟨S16384x512, .f32⟩
  | 4 => ⟨S512x512, .f32⟩
  | 5 => ⟨S16384x512, .f32⟩
  | 6 => ⟨S16384x512, .f32⟩
  | 7 => ⟨S_, .f32⟩
  | 8 => ⟨S16384x512, .f32⟩
  | 9 => ⟨S16384x512, .f32⟩
  | 10 => ⟨S16384x512, .f32⟩
  | 11 => ⟨S_, .f32⟩
  | 12 => ⟨S16384x512, .f32⟩
  | 13 => ⟨S16384x512, .f32⟩
  | 14 => ⟨S16384x512, .f32⟩
  | 15 => ⟨S_, .f32⟩
  | 16 => ⟨S16384x512, .f32⟩
  | 17 => ⟨S16384x512, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .f32⟩
  | 24 => ⟨S_, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S16384x512, .f32⟩
  | 35 => ⟨S_, .f32⟩
  | 36 => ⟨S16384x512, .f32⟩
  | 37 => ⟨S16384x512, .i1⟩
  | 38 => ⟨S16384x512, .f32⟩
  | 39 => ⟨S_, .f32⟩
  | 40 => ⟨S16384x512, .f32⟩
  | 41 => ⟨S16384x512, .i1⟩
  | 42 => ⟨S_, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S16384x512, .f32⟩
  | 49 => ⟨S_, .f32⟩
  | 50 => ⟨S_, .f32⟩
  | 51 => ⟨S_, .f32⟩
  | 52 => ⟨S16384x512, .f32⟩
  | 53 => ⟨S16384x512, .f32⟩
  | 54 => ⟨S_, .f32⟩
  | 55 => ⟨S16384x512, .f32⟩
  | 56 => ⟨S16384x512, .f32⟩
  | 57 => ⟨S_, .f32⟩
  | 58 => ⟨S16384x512, .f32⟩
  | 59 => ⟨S16384x512, .i1⟩
  | 60 => ⟨S16384x512, .f32⟩
  | 61 => ⟨S512x512, .f32⟩
  | 62 => ⟨S16384x512, .f32⟩
  | 63 => ⟨S16384x512, .f32⟩
  | 64 => ⟨S_, .f32⟩
  | 65 => ⟨S16384x512, .f32⟩
  | 66 => ⟨S16384x512, .f32⟩
  | 67 => ⟨S16384x512, .f32⟩
  | 68 => ⟨S_, .f32⟩
  | 69 => ⟨S16384x512, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S16384x512, .f32⟩
  | 76 => ⟨S16384x512, .f32⟩
  | 77 => ⟨S_, .f32⟩
  | 78 => ⟨S16384x512, .f32⟩
  | 79 => ⟨S16384x512, .f32⟩
  | 80 => ⟨S16384x512, .f32⟩
  | 81 => ⟨S_, .f32⟩
  | 82 => ⟨S16384x512, .f32⟩
  | 83 => ⟨S16384x512, .f32⟩
  | 84 => ⟨S_, .f32⟩
  | 85 => ⟨S16384x512, .f32⟩
  | 86 => ⟨S16384x512, .f32⟩
  | 87 => ⟨S16384x512, .f32⟩
  | 88 => ⟨S_, .f32⟩
  | 89 => ⟨S16384x512, .f32⟩
  | 90 => ⟨S16384x512, .f32⟩
  | 91 => ⟨S16384x512, .f32⟩
  | 92 => ⟨S_, .f32⟩
  | 93 => ⟨S16384x512, .f32⟩
  | 94 => ⟨S16384x512, .i1⟩
  | 95 => ⟨S16384x512, .f32⟩
  | 96 => ⟨S_, .f32⟩
  | 97 => ⟨S16384x512, .f32⟩
  | 98 => ⟨S16384x512, .i1⟩
  | 99 => ⟨S_, .f32⟩
  | 100 => ⟨S16384x512, .f32⟩
  | 101 => ⟨S16384x512, .f32⟩
  | 102 => ⟨S_, .f32⟩
  | 103 => ⟨S16384x512, .f32⟩
  | 104 => ⟨S16384x512, .f32⟩
  | 105 => ⟨S16384x512, .f32⟩
  | 106 => ⟨S_, .f32⟩
  | 107 => ⟨S_, .f32⟩
  | 108 => ⟨S_, .f32⟩
  | 109 => ⟨S16384x512, .f32⟩
  | 110 => ⟨S16384x512, .f32⟩
  | 111 => ⟨S_, .f32⟩
  | 112 => ⟨S16384x512, .f32⟩
  | 113 => ⟨S16384x512, .f32⟩
  | 114 => ⟨S_, .f32⟩
  | 115 => ⟨S16384x512, .f32⟩
  | 116 => ⟨S16384x512, .i1⟩
  | 117 => ⟨S16384x512, .f32⟩
  | 118 => ⟨S512x512, .f32⟩
  | 119 => ⟨S16384x512, .f32⟩
  | 120 => ⟨S16384x512, .f32⟩
  | 121 => ⟨S_, .f32⟩
  | 122 => ⟨S16384x512, .f32⟩
  | 123 => ⟨S16384x512, .f32⟩
  | 124 => ⟨S16384x512, .f32⟩
  | 125 => ⟨S_, .f32⟩
  | 126 => ⟨S16384x512, .f32⟩
  | 127 => ⟨S16384x512, .f32⟩
  | _ => ⟨S16384x2048, .f32⟩

abbrev hbmTy0_2 (i : Nat) : BufTy := match i % 128 with
  | 0 => ⟨S16384x512, .f32⟩
  | 1 => ⟨S_, .f32⟩
  | 2 => ⟨S16384x512, .f32⟩
  | 3 => ⟨S16384x512, .f32⟩
  | 4 => ⟨S16384x512, .f32⟩
  | 5 => ⟨S16384x512, .f32⟩
  | 6 => ⟨S_, .f32⟩
  | 7 => ⟨S16384x512, .f32⟩
  | 8 => ⟨S16384x512, .f32⟩
  | 9 => ⟨S16384x512, .f32⟩
  | 10 => ⟨S_, .f32⟩
  | 11 => ⟨S16384x512, .f32⟩
  | 12 => ⟨S16384x512, .f32⟩
  | 13 => ⟨S_, .f32⟩
  | 14 => ⟨S16384x512, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S16384x512, .f32⟩
  | 21 => ⟨S_, .f32⟩
  | 22 => ⟨S16384x512, .f32⟩
  | 23 => ⟨S16384x512, .i1⟩
  | 24 => ⟨S16384x512, .f32⟩
  | 25 => ⟨S_, .f32⟩
  | 26 => ⟨S16384x512, .f32⟩
  | 27 => ⟨S16384x512, .i1⟩
  | 28 => ⟨S_, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S16384x512, .f32⟩
  | 35 => ⟨S_, .f32⟩
  | 36 => ⟨S_, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_call0_v0 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_cst_14 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v43 : Ref sig .tc := ⟨.hbm, 70, rfl⟩
abbrev main_cst_15 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_16 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_17 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_18 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_19 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_20 : Ref sig .tc := ⟨.hbm, 95, rfl⟩
abbrev main_v63 : Ref sig .tc := ⟨.hbm, 96, rfl⟩
abbrev main_v64 : Ref sig .tc := ⟨.hbm, 97, rfl⟩
abbrev main_cst_21 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_22 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_23 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_24 : Ref sig .tc := ⟨.hbm, 110, rfl⟩
abbrev main_v74 : Ref sig .tc := ⟨.hbm, 111, rfl⟩
abbrev main_v75 : Ref sig .tc := ⟨.hbm, 112, rfl⟩
abbrev main_cst_25 : Ref sig .tc := ⟨.hbm, 113, rfl⟩
abbrev main_call2_v0 : Ref sig .tc := ⟨.hbm, 114, rfl⟩
abbrev main_v76 : Ref sig .tc := ⟨.hbm, 115, rfl⟩
abbrev main_cst_26 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_27 : Ref sig .tc := ⟨.hbm, 120, rfl⟩
abbrev main_cst_28 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v80 : Ref sig .tc := ⟨.hbm, 127, rfl⟩
abbrev main_cst_29 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_30 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_31 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_32 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_33 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_34 : Ref sig .tc := ⟨.hbm, 152, rfl⟩
abbrev main_v100 : Ref sig .tc := ⟨.hbm, 153, rfl⟩
abbrev main_v101 : Ref sig .tc := ⟨.hbm, 154, rfl⟩
abbrev main_cst_35 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_36 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_37 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_38 : Ref sig .tc := ⟨.hbm, 167, rfl⟩
abbrev main_v111 : Ref sig .tc := ⟨.hbm, 168, rfl⟩
abbrev main_v112 : Ref sig .tc := ⟨.hbm, 169, rfl⟩
abbrev main_cst_39 : Ref sig .tc := ⟨.hbm, 170, rfl⟩
abbrev main_call4_v0 : Ref sig .tc := ⟨.hbm, 171, rfl⟩
abbrev main_v113 : Ref sig .tc := ⟨.hbm, 172, rfl⟩
abbrev main_cst_40 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_41 : Ref sig .tc := ⟨.hbm, 177, rfl⟩
abbrev main_cst_42 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v117 : Ref sig .tc := ⟨.hbm, 184, rfl⟩
abbrev main_cst_43 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_cst_44 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_cst_45 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_cst_46 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_47 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_cst_48 : Ref sig .tc := ⟨.hbm, 209, rfl⟩
abbrev main_v137 : Ref sig .tc := ⟨.hbm, 210, rfl⟩
abbrev main_v138 : Ref sig .tc := ⟨.hbm, 211, rfl⟩
abbrev main_cst_49 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_cst_50 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_51 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_cst_52 : Ref sig .tc := ⟨.hbm, 224, rfl⟩
abbrev main_v148 : Ref sig .tc := ⟨.hbm, 225, rfl⟩
abbrev main_v149 : Ref sig .tc := ⟨.hbm, 226, rfl⟩
abbrev main_cst_53 : Ref sig .tc := ⟨.hbm, 227, rfl⟩
abbrev main_call6_v0 : Ref sig .tc := ⟨.hbm, 228, rfl⟩
abbrev main_v150 : Ref sig .tc := ⟨.hbm, 229, rfl⟩
abbrev main_cst_54 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_cst_55 : Ref sig .tc := ⟨.hbm, 234, rfl⟩
abbrev main_cst_56 : Ref sig .tc := ⟨.hbm, 235, rfl⟩
abbrev main_call7_v0 : Ref sig .tc := ⟨.hbm, 236, rfl⟩
abbrev main_call7_v1 : Ref sig .tc := ⟨.hbm, 237, rfl⟩
abbrev main_call7_v2 : Ref sig .tc := ⟨.hbm, 238, rfl⟩
abbrev main_call7_v3 : Ref sig .tc := ⟨.hbm, 239, rfl⟩
abbrev main_call7_v4 : Ref sig .tc := ⟨.hbm, 240, rfl⟩
abbrev main_v154 : Ref sig .tc := ⟨.hbm, 241, rfl⟩
abbrev main_cst_57 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_cst_58 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_cst_59 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_cst_60 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_cst_61 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_cst_62 : Ref sig .tc := ⟨.hbm, 266, rfl⟩
abbrev main_v174 : Ref sig .tc := ⟨.hbm, 267, rfl⟩
abbrev main_v175 : Ref sig .tc := ⟨.hbm, 268, rfl⟩
abbrev main_cst_63 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_cst_64 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_cst_65 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_cst_66 : Ref sig .tc := ⟨.hbm, 281, rfl⟩
abbrev main_v185 : Ref sig .tc := ⟨.hbm, 282, rfl⟩
abbrev main_v186 : Ref sig .tc := ⟨.hbm, 283, rfl⟩
abbrev main_cst_67 : Ref sig .tc := ⟨.hbm, 284, rfl⟩
abbrev main_call8_v0 : Ref sig .tc := ⟨.hbm, 285, rfl⟩
abbrev main_v187 : Ref sig .tc := ⟨.hbm, 286, rfl⟩
abbrev main_cst_68 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_cst_69 : Ref sig .tc := ⟨.hbm, 291, rfl⟩
abbrev main_cst_70 : Ref sig .tc := ⟨.hbm, 292, rfl⟩
abbrev main_call9_v0 : Ref sig .tc := ⟨.hbm, 293, rfl⟩
abbrev main_call9_v1 : Ref sig .tc := ⟨.hbm, 294, rfl⟩
abbrev main_call9_v2 : Ref sig .tc := ⟨.hbm, 295, rfl⟩
abbrev main_call9_v3 : Ref sig .tc := ⟨.hbm, 296, rfl⟩
abbrev main_call9_v4 : Ref sig .tc := ⟨.hbm, 297, rfl⟩
abbrev main_v191 : Ref sig .tc := ⟨.hbm, 298, rfl⟩

abbrev nD : Nat := 1
abbrev τ : Topo := Topo.v7x

variable {F : FTy → Type} [FloatOps F]

class Facts₀ : Prop where
  transposes_S512x2048_S2048x512_1_0 : S512x2048.Transposes [1, 0] S2048x512
  bcast_S_S16384x512 : S_.BroadcastsInDim S16384x512 (![] : Fin 0 → Fin S16384x512.rank)
  bcast_S512_S16384x512_1 : S512.BroadcastsInDim S16384x512 (![1] : Fin 1 → Fin S16384x512.rank)
  transposes_S512x512_S512x512_1_0 : S512x512.Transposes [1, 0] S512x512
  dot_S16384x2048_S2048x512_S16384x512_1_0_0_1_n_n_wf : DotDims.WF S16384x2048 S2048x512 S16384x512 [1] [0] [0] [1] [] []
  dot_S16384x512_S512x512_S16384x512_1_0_0_1_n_n_wf : DotDims.WF S16384x512 S512x512 S16384x512 [1] [0] [0] [1] [] []

variable [Facts₀]

def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.Recurrence.lean ====
/-
  The Izhikevich recurrence both programs compute, written once over an arbitrary shape.

  A neuron population is a vector over a shape `s`; `Q` is the constant query current, `v` the membrane potential and
  `u` the recovery variable. One step is: the spikes of the current potential (`v ≥ 30`, as 0/1 floats) drive a recurrent
  current `P spikes`; an Euler half-step of
      dv = 0.04·v·v + 5·v + 140 − u + (Q + P spikes),   du = 0.02·(0.2·v − u)
  gives the new potential and recovery; where the new potential reaches 30 it is reset to −55 and the recovery
  jumps by 4; the potential is finally clamped to [−90, 30]. The result of the whole run is the spike vector of the
  fifth step's Euler potential.

  The three parameters are the only places where the accelerator's body and the host's program spell an
  operation differently: `C w` is the vector holding the float with bit pattern `w` everywhere (a splat, or a
  broadcast of a rank-0 constant), `I m` turns a 1-bit mask into 0/1 floats (signed conversion of the zero-extended
  mask, or unsigned conversion of the mask), and `P x` is the product of `x` with the transposed recurrent weights
  (a matmul into a zero accumulator, or a dot_general). Every other operation is the same elementwise operation on
  both sides, in the same order.
-/
import Idealize.ShloMosaic.PureOps.Vector

noncomputable section

namespace Izhikevich

open Idealize.ShloMosaic

variable {F : FTy → Type} [FloatOps F] {s : Shape}
variable (C : BitVec 32 → FVec F s .f32) (I : IVec s 1 → FVec F s .f32) (P : FVec F s .f32 → FVec F s .f32)

/-- The 0/1 spike vector of a potential: 1 where it is at least 30. -/
def spikeOf (x : FVec F s .f32) : FVec F s .f32 :=
  I (cmpf .oge x (C 0x41F00000#32))

/-- The potential after the Euler half-step, before reset and clamp:
    v + (0.04·v·v + 5·v + 140 − u + (Q + P (spikes of v)))·0.5. -/
def vEuler (Q v u : FVec F s .f32) : FVec F s .f32 :=
  addf v (mulf (addf (subf (addf (addf (mulf (mulf (C 0x3D23D70A#32) v) v) (mulf (C 0x40A00000#32) v)) (C 0x430C0000#32)) u)
    (addf Q (P (spikeOf C I v)))) (C 0x3F000000#32))

/-- The recovery variable after the Euler half-step, before the spike jump: u + (0.02·(0.2·v − u))·0.5. -/
def uEuler (v u : FVec F s .f32) : FVec F s .f32 :=
  addf u (mulf (mulf (C 0x3CA3D70A#32) (subf (mulf (C 0x3E4CCCCD#32) v) u)) (C 0x3F000000#32))

/-- The potential after one full step: reset to −55 where the Euler potential spiked, then clamped to [−90, 30]. -/
def vNext (Q v u : FVec F s .f32) : FVec F s .f32 :=
  minimumf (C 0x41F00000#32) (maximumf (C 0xC2B40000#32)
    (select (cmpf .ogt (spikeOf C I (vEuler C I P Q v u)) (C 0x00000000#32)) (C 0xC25C0000#32) (vEuler C I P Q v u)))

/-- The recovery variable after one full step: the Euler value plus 4 where the Euler potential spiked. -/
def uNext (Q v u : FVec F s .f32) : FVec F s .f32 :=
  addf (uEuler C v u) (mulf (spikeOf C I (vEuler C I P Q v u)) (C 0x40800000#32))

/-- One full step of the pair (potential, recovery). -/
def step (Q : FVec F s .f32) (st : FVec F s .f32 × FVec F s .f32) : FVec F s .f32 × FVec F s .f32 :=
  (vNext C I P Q st.1 st.2, uNext C I P Q st.1 st.2)

/-- The spikes of the fifth step: four full steps from (v₀, u₀), then the spike vector of the fifth Euler potential. -/
def spikes5 (Q v₀ u₀ : FVec F s .f32) : FVec F s .f32 :=
  spikeOf C I (vEuler C I P Q
    (step C I P Q (step C I P Q (step C I P Q (step C I P Q (v₀, u₀))))).1
    (step C I P Q (step C I P Q (step C I P Q (step C I P Q (v₀, u₀))))).2)

end Izhikevich

end
-- ==== Proof.KerSpec.lean ====
/-
  The accelerator body's spelling of the recurrence (Recurrence.lean) over one block of 512 rows.

  A constant vector is a scalar splat; a mask becomes 0/1 floats by signed conversion of its zero-extension to 32
  bits; the recurrent current is the matmul of the spikes with the (already transposed) recurrent weights into a zero
  accumulator; the query current is the matmul of the block of input spikes with the (already transposed) input
  weights into a zero accumulator, times 10; the initial potential and recovery are the 1×512 rows repeated down the
  block.
-/
import proofs.«103415_j37580963840255_1_alg».proof.Proof.Gen.KernelIdeal
import proofs.«103415_j37580963840255_1_alg».proof.Proof.Recurrence

noncomputable section

namespace Cert.KernelIdeal.Spec

open Idealize.ShloMosaic Cert.KernelIdeal Cert.KernelIdeal.Facts₀

variable {F : FTy → Type} [FloatOps F]

/-- The block-shaped vector holding the float with bit pattern `w` everywhere. -/
def C (w : BitVec 32) : FVec F S512x512 .f32 := broadcast S512x512 (Scalar.ofBits .f32 w)

/-- A mask as 0/1 floats. -/
def I (m : IVec S512x512 1) : FVec F S512x512 .f32 := sitofp .f32 (extui 32 m natLt_1_32)

/-- The recurrent weights as the body uses them (the staged block, recast to its own shape). -/
def W (x2 : FVec F S512x512 .f32) : FVec F S512x512 .f32 := shapeCast S512x512 x2 shapeCasts_S512x512_S512x512

/-- The recurrent current of a block of spikes `x`: x · w, into a zero accumulator. -/
def P (w : FVec F S512x512 .f32) (x : FVec F S512x512 .f32) : FVec F S512x512 .f32 :=
  matmul dot_S512x512_S512x512_S512x512_1_0_0_1_n_n (some .fp32) x w (constant S512x512 .f32 0x00000000#32)

/-- The query current of a block: (dg_block · w_mossyᵀ) · 10. -/
def Q (x0 : FVec F S512x2048 .f32) (x1 : FVec F S2048x512 .f32) : FVec F S512x512 .f32 :=
  mulf (matmul dot_S512x2048_S2048x512_S512x512_1_0_0_1_n_n (some .fp32) x0
    (shapeCast S2048x512 x1 shapeCasts_S2048x512_S2048x512) (constant S512x512 .f32 0x00000000#32)) (C 0x41200000#32)

/-- A 1×512 row repeated down the block. -/
def rowsOf (x : FVec F S1x512 .f32) : FVec F S512x512 .f32 :=
  broadcastTo S512x512 (shapeCast S1x512 (shapeCast S1x512 x shapeCasts_S1x512_S1x512) shapeCasts_S1x512_S1x512)
    broadcasts_S1x512_S512x512

/-- What the body stores for one block, as one function of the five staged blocks. -/
def result (x0 : FVec F S512x2048 .f32) (x1 : FVec F S2048x512 .f32) (x2 : FVec F S512x512 .f32)
    (x3 x4 : FVec F S1x512 .f32) : FVec F S512x512 .f32 :=
  Izhikevich.spikes5 C I (P (W x2)) (Q x0 x1) (rowsOf x3) (rowsOf x4)

end Cert.KernelIdeal.Spec

end
-- ==== Proof.RefSpec.lean ====
/-
  The host program's spelling of the recurrence (Recurrence.lean) over the whole batch of 16384 rows.

  A constant vector is a rank-0 constant broadcast to the batch shape; a mask becomes 0/1 floats by unsigned
  conversion; the recurrent current is the dot_general of the spikes with the transposed recurrent weights; the query
  current is the dot_general of the input spikes with the transposed input weights, times 10; the initial potential
  and recovery are the length-512 vectors repeated along the batch axis.
-/
import proofs.«103415_j37580963840255_1_alg».proof.Proof.Gen.ReferenceIdeal
import proofs.«103415_j37580963840255_1_alg».proof.Proof.Recurrence

noncomputable section

namespace Cert.ReferenceIdeal.Spec

open Idealize.ShloMosaic Cert.ReferenceIdeal Cert.ReferenceIdeal.Facts₀

variable {F : FTy → Type} [FloatOps F]

/-- The batch-shaped vector holding the float with bit pattern `w` everywhere. -/
def C (w : BitVec 32) : FVec F S16384x512 .f32 :=
  broadcastInDim S16384x512 ![] bcast_S_S16384x512 (constant S_ .f32 w)

/-- A mask as 0/1 floats. -/
def I (m : IVec S16384x512 1) : FVec F S16384x512 .f32 := uitofp .f32 m

/-- The recurrent current of a spike matrix `x`: x · W_recᵀ. -/
def P (a2 : FVec F S512x512 .f32) (x : FVec F S16384x512 .f32) : FVec F S16384x512 .f32 :=
  Host.dotGeneral dot_S16384x512_S512x512_S16384x512_1_0_0_1_n_n none x
    (transpose S512x512 [1, 0] a2 transposes_S512x512_S512x512_1_0)

/-- The query current: (dg · W_mossyᵀ) · 10. -/
def Q (a0 : FVec F S16384x2048 .f32) (a1 : FVec F S512x2048 .f32) : FVec F S16384x512 .f32 :=
  mulf (Host.dotGeneral dot_S16384x2048_S2048x512_S16384x512_1_0_0_1_n_n none a0
    (transpose S2048x512 [1, 0] a1 transposes_S512x2048_S2048x512_1_0)) (C 0x41200000#32)

/-- A length-512 vector repeated on every row of the batch. -/
def rowsOf (a : FVec F S512 .f32) : FVec F S16384x512 .f32 :=
  broadcastInDim S16384x512 ![1] bcast_S512_S16384x512_1 a

/-- The host program's result as one function of its five arguments. -/
def result (a0 : FVec F S16384x2048 .f32) (a1 : FVec F S512x2048 .f32) (a2 : FVec F S512x512 .f32)
    (a3 a4 : FVec F S512 .f32) : FVec F S16384x512 .f32 :=
  Izhikevich.spikes5 C I (P a2) (Q a0 a1) (rowsOf a3) (rowsOf a4)

end Cert.ReferenceIdeal.Spec

end
-- ==== Proof.RowBlock.lean ====
/-
  Row blocks of a 16384-row array.

  The batch of 16384 rows is processed in 32 blocks of 512 consecutive rows. `rowIdx t y` is the place, in the whole
  array, of entry `y` of block `t` (row 512·t + y₀, column y₁), and `rowBlock t X` is block `t` of `X` as an array
  of 512 rows.
-/
import Idealize.ShloMosaic.Lib.ValueIdx

noncomputable section

namespace Izhikevich

open Idealize.ShloMosaic Idealize.ShloMosaic.ValueIdx

/-- The index, in an array of 16384 rows, of entry `y` of the block of 512 rows number `t`. -/
def rowIdx {n : Nat} (t : Fin 32) (y : (⟨2, ![512, n]⟩ : Shape).Idx) : (⟨2, ![16384, n]⟩ : Shape).Idx :=
  ix2 (⟨512 * t.val + (y 0).val, by have h0 := idx2_lt0 y; have ht := t.isLt; omega⟩ : Fin 16384)
    (⟨(y 1).val, idx2_lt1 y⟩ : Fin n)

/-- Block `t` (rows 512·t … 512·t + 511) of an array with 16384 rows. -/
def rowBlock {α : Type} {n : Nat} (t : Fin 32) (X : (⟨2, ![16384, n]⟩ : Shape).Idx → α) :
    (⟨2, ![512, n]⟩ : Shape).Idx → α :=
  fun y => X (rowIdx t y)

theorem rowBlock_apply {α : Type} {n : Nat} (t : Fin 32) (X : (⟨2, ![16384, n]⟩ : Shape).Idx → α)
    (y : (⟨2, ![512, n]⟩ : Shape).Idx) : rowBlock t X y = X (rowIdx t y) := rfl

/-- The row coordinate of `rowIdx`. -/
theorem rowIdx_row {n : Nat} (t : Fin 32) (y : (⟨2, ![512, n]⟩ : Shape).Idx) :
    (rowIdx t y 0).val = 512 * t.val + (y 0).val := rfl

/-- The column coordinate of `rowIdx`. -/
theorem rowIdx_col {n : Nat} (t : Fin 32) (y : (⟨2, ![512, n]⟩ : Shape).Idx) :
    (rowIdx t y 1).val = (y 1).val := rfl

end Izhikevich

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Restrict.lean ====
/-
  Block t of the host program's result is the accelerator body's result on block t of the inputs.

  The recurrence (Recurrence.lean) is built from pointwise operations and three parameters: the constant vectors C,
  the mask conversion I and the recurrent product P. Taking block t of a 16384-row array (RowBlock.lean) commutes
  with every pointwise operation, because a pointwise operation reads each entry of its result from the same entry of
  its operands. So if block t of C w is C' w, block t of I m is I' of block t of m, and block t of P x is P' of block t
  of x, then block t of each stage of the recurrence over (C, I, P) is that stage over (C', I', P') on the blocks of
  its arguments: the first half of this file, for any float family.

  The second half checks the three hypotheses, and the two input stages, between the host's spelling (RefSpec.lean)
  and the body's spelling (KerSpec.lean), at the extended reals:
    • a rank-0 constant broadcast to the batch and a scalar splat hold the same float everywhere;
    • a bit converted unsigned is its zero-extension to 32 bits converted signed (both are 0 or 1);
    • row 512·t + p of x · W is row p of (block t of x) · W, both being the sum over κ of x (512·t + p, κ) · W (κ, q),
      and adding that sum to a zero accumulator changes nothing; the same for the query current, with 2048 terms;
    • a length-512 vector repeated on every row of the batch, cut to block t, is its 1×512 recast repeated down the
      block: both read the vector at the column coordinate.
-/
import proofs.«103415_j37580963840255_1_alg».proof.Proof.RefSpec
import proofs.«103415_j37580963840255_1_alg».proof.Proof.KerSpec
import proofs.«103415_j37580963840255_1_alg».proof.Proof.RowBlock
import proofs.«103415_j37580963840255_1_alg».proof.Proof.LibPlainDot
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.Blocks

open Idealize.ShloMosaic Idealize.ShloMosaic.ValueIdx Izhikevich

/-! ## Row blocks commute with the pointwise operations -/

section Pointwise
variable {F : FTy → Type} [FloatOps F] {n : Nat} (t : Fin 32)

theorem rowBlock_addf (a b : FVec F ⟨2, ![16384, n]⟩ .f32) :
    rowBlock t (addf a b) = addf (rowBlock t a) (rowBlock t b) := rfl

theorem rowBlock_subf (a b : FVec F ⟨2, ![16384, n]⟩ .f32) :
    rowBlock t (subf a b) = subf (rowBlock t a) (rowBlock t b) := rfl

theorem rowBlock_mulf (a b : FVec F ⟨2, ![16384, n]⟩ .f32) :
    rowBlock t (mulf a b) = mulf (rowBlock t a) (rowBlock t b) := rfl

theorem rowBlock_maximumf (a b : FVec F ⟨2, ![16384, n]⟩ .f32) :
    rowBlock t (maximumf a b) = maximumf (rowBlock t a) (rowBlock t b) := rfl

theorem rowBlock_minimumf (a b : FVec F ⟨2, ![16384, n]⟩ .f32) :
    rowBlock t (minimumf a b) = minimumf (rowBlock t a) (rowBlock t b) := rfl

theorem rowBlock_cmpf (p : CmpFPredicate) (a b : FVec F ⟨2, ![16384, n]⟩ .f32) :
    rowBlock t (cmpf p a b) = cmpf p (rowBlock t a) (rowBlock t b) := rfl

theorem rowBlock_select {α : Type} (c : IVec ⟨2, ![16384, n]⟩ 1) (a b : (⟨2, ![16384, n]⟩ : Shape).Idx → α) :
    rowBlock t (select c a b) = select (rowBlock t c) (rowBlock t a) (rowBlock t b) := rfl

end Pointwise

/-! ## Row blocks commute with every stage of the recurrence -/

section Generic
variable {F : FTy → Type} [FloatOps F] {n : Nat} (t : Fin 32)
variable (C : BitVec 32 → FVec F ⟨2, ![16384, n]⟩ .f32)
  (I : IVec ⟨2, ![16384, n]⟩ 1 → FVec F ⟨2, ![16384, n]⟩ .f32)
  (P : FVec F ⟨2, ![16384, n]⟩ .f32 → FVec F ⟨2, ![16384, n]⟩ .f32)
variable (C' : BitVec 32 → FVec F ⟨2, ![512, n]⟩ .f32)
  (I' : IVec ⟨2, ![512, n]⟩ 1 → FVec F ⟨2, ![512, n]⟩ .f32)
  (P' : FVec F ⟨2, ![512, n]⟩ .f32 → FVec F ⟨2, ![512, n]⟩ .f32)

/-- The spike vector of a block is the block of the spike vector. -/
theorem rowBlock_spikeOf (hC : ∀ w, rowBlock t (C w) = C' w) (hI : ∀ m, rowBlock t (I m) = I' (rowBlock t m))
    (x : FVec F ⟨2, ![16384, n]⟩ .f32) :
    rowBlock t (spikeOf C I x) = spikeOf C' I' (rowBlock t x) := by
  unfold spikeOf
  rw [hI, rowBlock_cmpf, hC]

/-- The Euler potential of a block is the block of the Euler potential. -/
theorem rowBlock_vEuler (hC : ∀ w, rowBlock t (C w) = C' w) (hI : ∀ m, rowBlock t (I m) = I' (rowBlock t m))
    (hP : ∀ x, rowBlock t (P x) = P' (rowBlock t x)) (Q v u : FVec F ⟨2, ![16384, n]⟩ .f32) :
    rowBlock t (vEuler C I P Q v u) = vEuler C' I' P' (rowBlock t Q) (rowBlock t v) (rowBlock t u) := by
  unfold vEuler
  simp only [rowBlock_addf, rowBlock_subf, rowBlock_mulf, hC, hP, rowBlock_spikeOf t C I C' I' hC hI]

/-- The Euler recovery of a block is the block of the Euler recovery. -/
theorem rowBlock_uEuler (hC : ∀ w, rowBlock t (C w) = C' w) (v u : FVec F ⟨2, ![16384, n]⟩ .f32) :
    rowBlock t (uEuler C v u) = uEuler C' (rowBlock t v) (rowBlock t u) := by
  unfold uEuler
  simp only [rowBlock_addf, rowBlock_subf, rowBlock_mulf, hC]

/-- The next potential of a block is the block of the next potential. -/
theorem rowBlock_vNext (hC : ∀ w, rowBlock t (C w) = C' w) (hI : ∀ m, rowBlock t (I m) = I' (rowBlock t m))
    (hP : ∀ x, rowBlock t (P x) = P' (rowBlock t x)) (Q v u : FVec F ⟨2, ![16384, n]⟩ .f32) :
    rowBlock t (vNext C I P Q v u) = vNext C' I' P' (rowBlock t Q) (rowBlock t v) (rowBlock t u) := by
  unfold vNext
  simp only [rowBlock_minimumf, rowBlock_maximumf, rowBlock_select, rowBlock_cmpf, hC,
    rowBlock_spikeOf t C I C' I' hC hI, rowBlock_vEuler t C I P C' I' P' hC hI hP]

/-- The next recovery of a block is the block of the next recovery. -/
theorem rowBlock_uNext (hC : ∀ w, rowBlock t (C w) = C' w) (hI : ∀ m, rowBlock t (I m) = I' (rowBlock t m))
    (hP : ∀ x, rowBlock t (P x) = P' (rowBlock t x)) (Q v u : FVec F ⟨2, ![16384, n]⟩ .f32) :
    rowBlock t (uNext C I P Q v u) = uNext C' I' P' (rowBlock t Q) (rowBlock t v) (rowBlock t u) := by
  unfold uNext
  simp only [rowBlock_addf, rowBlock_mulf, hC, rowBlock_spikeOf t C I C' I' hC hI,
    rowBlock_vEuler t C I P C' I' P' hC hI hP, rowBlock_uEuler t C C' hC]

/-- Block t of a pair (potential, recovery), component by component. -/
def rowBlock2 (st : FVec F ⟨2, ![16384, n]⟩ .f32 × FVec F ⟨2, ![16384, n]⟩ .f32) :
    FVec F ⟨2, ![512, n]⟩ .f32 × FVec F ⟨2, ![512, n]⟩ .f32 :=
  (rowBlock t st.1, rowBlock t st.2)

/-- One full step of a block is the block of one full step. -/
theorem rowBlock2_step (hC : ∀ w, rowBlock t (C w) = C' w) (hI : ∀ m, rowBlock t (I m) = I' (rowBlock t m))
    (hP : ∀ x, rowBlock t (P x) = P' (rowBlock t x)) (Q : FVec F ⟨2, ![16384, n]⟩ .f32)
    (st : FVec F ⟨2, ![16384, n]⟩ .f32 × FVec F ⟨2, ![16384, n]⟩ .f32) :
    rowBlock2 t (step C I P Q st) = step C' I' P' (rowBlock t Q) (rowBlock2 t st) := by
  unfold step rowBlock2
  rw [rowBlock_vNext t C I P C' I' P' hC hI hP, rowBlock_uNext t C I P C' I' P' hC hI hP]

/-- The spikes of the fifth step of a block are the block of the spikes of the fifth step. -/
theorem rowBlock_spikes5 (hC : ∀ w, rowBlock t (C w) = C' w) (hI : ∀ m, rowBlock t (I m) = I' (rowBlock t m))
    (hP : ∀ x, rowBlock t (P x) = P' (rowBlock t x)) (Q v₀ u₀ : FVec F ⟨2, ![16384, n]⟩ .f32) :
    rowBlock t (spikes5 C I P Q v₀ u₀) = spikes5 C' I' P' (rowBlock t Q) (rowBlock t v₀) (rowBlock t u₀) := by
  have h4 : rowBlock2 t (step C I P Q (step C I P Q (step C I P Q (step C I P Q (v₀, u₀)))))
      = step C' I' P' (rowBlock t Q) (step C' I' P' (rowBlock t Q) (step C' I' P' (rowBlock t Q)
          (step C' I' P' (rowBlock t Q) (rowBlock t v₀, rowBlock t u₀)))) := by
    rw [rowBlock2_step t C I P C' I' P' hC hI hP, rowBlock2_step t C I P C' I' P' hC hI hP,
      rowBlock2_step t C I P C' I' P' hC hI hP, rowBlock2_step t C I P C' I' P' hC hI hP]
    rfl
  unfold spikes5
  rw [rowBlock_spikeOf t C I C' I' hC hI, rowBlock_vEuler t C I P C' I' P' hC hI hP]
  rw [← h4]
  rfl

end Generic

/-! ## The two spellings of the parameters and of the inputs -/

section Instances
variable (t : Fin 32)

/-- A rank-0 constant broadcast to the batch, cut to a block, is the scalar splat over the block. -/
theorem rowBlock_C {F : FTy → Type} [FloatOps F] (w : BitVec 32) :
    rowBlock t (Cert.ReferenceIdeal.Spec.C (F := F) w) = Cert.KernelIdeal.Spec.C (F := F) w := by
  funext y
  rfl

/-- A bit converted unsigned is its zero-extension to 32 bits converted signed. -/
theorem rowBlock_I (m : IVec Cert.ReferenceIdeal.S16384x512 1) :
    rowBlock t (Cert.ReferenceIdeal.Spec.I (F := Ideal) m) = Cert.KernelIdeal.Spec.I (F := Ideal) (rowBlock t m) :=
  (sitofp_extui_eq_uitofp (φ := .f32) (rowBlock t m) Cert.KernelIdeal.Facts₀.natLt_1_32).symm

/-- Row 512·t + p of a plain product is row p of the product of block t of the left operand, and a zero accumulator
    adds nothing: both entries are the sum over κ of l (512·t + p, κ) · r (κ, q). -/
theorem rowBlock_dot {K N : Nat}
    (dB : DotDims ⟨2, ![16384, K]⟩ ⟨2, ![K, N]⟩ ⟨2, ![16384, N]⟩) (hB : PlainDot.IsPlain dB)
    (dS : DotDims ⟨2, ![512, K]⟩ ⟨2, ![K, N]⟩ ⟨2, ![512, N]⟩) (hS : PlainDot.IsPlain dS)
    (prec prec' : Option ContractPrecision)
    (l : FVec Ideal ⟨2, ![16384, K]⟩ .f32) (r : FVec Ideal ⟨2, ![K, N]⟩ .f32) :
    rowBlock t (Host.dotGeneral dB prec l r)
      = matmul dS prec' (rowBlock t l) r (constant ⟨2, ![512, N]⟩ .f32 0x00000000#32) := by
  funext y
  obtain ⟨p, q, rfl⟩ : ∃ (p : Fin 512) (q : Fin N), y = ix2 p q := ⟨y 0, y 1, eq_ix2 y⟩
  have hp : 512 * t.val + p.val < 16384 := by have := t.isLt; have := p.isLt; omega
  exact (PlainDot.dotGeneral_plain dB hB prec .single l r ⟨512 * t.val + p.val, hp⟩ q).trans
    (PlainDot.matmul_zero_plain dS hS prec' (rowBlock t l) r p q).symm

/-- The staged recurrent weights, recast to their own shape, are themselves. -/
theorem W_eq {F : FTy → Type} [FloatOps F] (x2 : FVec F Cert.KernelIdeal.S512x512 .f32) :
    Cert.KernelIdeal.Spec.W x2 = x2 :=
  shapeCast_self x2 _

/-- Block t of the host's recurrent current is the body's recurrent current of block t of the spikes. -/
theorem rowBlock_P (a2 : FVec Ideal Cert.ReferenceIdeal.S512x512 .f32)
    (x : FVec Ideal Cert.ReferenceIdeal.S16384x512 .f32) :
    rowBlock t (Cert.ReferenceIdeal.Spec.P a2 x)
      = Cert.KernelIdeal.Spec.P (Cert.KernelIdeal.Spec.W (transpose Cert.KernelIdeal.S512x512 [1, 0] a2
          Cert.KernelIdeal.Facts₀.transposes_S512x512_S512x512_1_0)) (rowBlock t x) := by
  rw [W_eq]
  exact rowBlock_dot t Cert.ReferenceIdeal.dot_S16384x512_S512x512_S16384x512_1_0_0_1_n_n ⟨rfl, rfl, rfl, rfl, rfl, rfl⟩
    Cert.KernelIdeal.dot_S512x512_S512x512_S512x512_1_0_0_1_n_n ⟨rfl, rfl, rfl, rfl, rfl, rfl⟩ none (some .fp32) x _

/-- Block t of the host's query current is the body's query current of block t of the input spikes. -/
theorem rowBlock_Q (a0 : FVec Ideal Cert.ReferenceIdeal.S16384x2048 .f32)
    (a1 : FVec Ideal Cert.ReferenceIdeal.S512x2048 .f32) :
    rowBlock t (Cert.ReferenceIdeal.Spec.Q a0 a1)
      = Cert.KernelIdeal.Spec.Q (rowBlock t a0) (transpose Cert.KernelIdeal.S2048x512 [1, 0] a1
          Cert.KernelIdeal.Facts₀.transposes_S512x2048_S2048x512_1_0) := by
  unfold Cert.ReferenceIdeal.Spec.Q Cert.KernelIdeal.Spec.Q
  rw [rowBlock_mulf, rowBlock_C, shapeCast_self]
  exact congrArg (fun z => mulf z (Cert.KernelIdeal.Spec.C 0x41200000#32))
    (rowBlock_dot t Cert.ReferenceIdeal.dot_S16384x2048_S2048x512_S16384x512_1_0_0_1_n_n ⟨rfl, rfl, rfl, rfl, rfl, rfl⟩
      Cert.KernelIdeal.dot_S512x2048_S2048x512_S512x512_1_0_0_1_n_n ⟨rfl, rfl, rfl, rfl, rfl, rfl⟩ none (some .fp32) a0 _)

/-- A length-512 vector repeated on every row of the batch, cut to block t, is its 1×512 recast repeated down the
    block: both read the vector at the column coordinate. -/
theorem rowBlock_rowsOf {F : FTy → Type} [FloatOps F] (a : FVec F Cert.ReferenceIdeal.S512 .f32) :
    rowBlock t (Cert.ReferenceIdeal.Spec.rowsOf a)
      = Cert.KernelIdeal.Spec.rowsOf (shapeCast Cert.KernelIdeal.S1x512 a Cert.KernelIdeal.Facts₀.shapeCasts_S512_S1x512) := by
  unfold Cert.ReferenceIdeal.Spec.rowsOf Cert.KernelIdeal.Spec.rowsOf
  rw [shapeCast_self, shapeCast_self]
  funext y
  obtain ⟨p, q, rfl⟩ : ∃ (p : Fin 512) (q : Fin 512), y = ix2 p q := ⟨y 0, y 1, eq_ix2 y⟩
  refine Eq.trans ?_ (Eq.symm ((broadcastTo_1b_ab_apply _ _ p q).trans (shapeCast_a_1a_apply a _ (0 : Fin 1) q)))
  exact broadcastInDim_apply ![1] _ a (rowIdx t (ix2 p q)) (ix1 q) (fun ax => by
    match ax with
    | ⟨0, _⟩ =>
      show q.val = if (512 : ℕ) = 1 then 0 else q.val
      rw [if_neg (by decide)])

end Instances

/-! ## The result -/

/-- Block t of the host program's result is the body's result on block t of the input spikes, the transposed
    weights and the 1×512 recasts of the initial potential and recovery. -/
theorem rowBlock_result (t : Fin 32)
    (a0 : FVec Ideal Cert.ReferenceIdeal.S16384x2048 .f32) (a1 : FVec Ideal Cert.ReferenceIdeal.S512x2048 .f32)
    (a2 : FVec Ideal Cert.ReferenceIdeal.S512x512 .f32) (a3 a4 : FVec Ideal Cert.ReferenceIdeal.S512 .f32) :
    rowBlock t (Cert.ReferenceIdeal.Spec.result (F := Ideal) a0 a1 a2 a3 a4)
      = Cert.KernelIdeal.Spec.result (F := Ideal) (rowBlock t a0)
          (transpose Cert.KernelIdeal.S2048x512 [1, 0] a1 Cert.KernelIdeal.Facts₀.transposes_S512x2048_S2048x512_1_0)
          (transpose Cert.KernelIdeal.S512x512 [1, 0] a2 Cert.KernelIdeal.Facts₀.transposes_S512x512_S512x512_1_0)
          (shapeCast Cert.KernelIdeal.S1x512 a3 Cert.KernelIdeal.Facts₀.shapeCasts_S512_S1x512)
          (shapeCast Cert.KernelIdeal.S1x512 a4 Cert.KernelIdeal.Facts₀.shapeCasts_S512_S1x512) := by
  unfold Cert.ReferenceIdeal.Spec.result Cert.KernelIdeal.Spec.result
  rw [rowBlock_spikes5 t Cert.ReferenceIdeal.Spec.C Cert.ReferenceIdeal.Spec.I (Cert.ReferenceIdeal.Spec.P a2)
    Cert.KernelIdeal.Spec.C Cert.KernelIdeal.Spec.I
    (Cert.KernelIdeal.Spec.P (Cert.KernelIdeal.Spec.W (transpose Cert.KernelIdeal.S512x512 [1, 0] a2
      Cert.KernelIdeal.Facts₀.transposes_S512x512_S512x512_1_0)))
    (rowBlock_C t) (rowBlock_I t) (rowBlock_P t a2),
    rowBlock_Q, rowBlock_rowsOf, rowBlock_rowsOf]

end Cert.Blocks

end
-- ==== Proof.KernelValue.lean ====
/-
  The kernel's output array after its run is the reference's result of the launched arguments.

  The pallas_call walks 32 grid points; point `t` stages rows 512·t … 512·t+511 of the input spikes, the whole
  transposed input weights, the whole transposed recurrent weights and the two 1×512 initial rows, and writes back
  rows 512·t … 512·t+511 of the output. The body stores ONE value into the output block: the spikes of the fifth
  recurrence step computed from the staged blocks (`out_eq`: by unfolding, the stored value is the recurrence of
  Recurrence.lean at the body's spellings, KerSpec.lean). Since each row of the recurrence depends only on the same row
  of the input spikes, that value is block `t` of the reference's result over the whole batch (Restrict.lean), so every
  point writes back its block of one whole-array function `G`; the 32 blocks tile the 16384 rows (row i lies in block
  i / 512), so the array ends holding `G`.
-/
import proofs.«103415_j37580963840255_1_alg».proof.Proof.Gen.KernelIdeal.Value
import proofs.«103415_j37580963840255_1_alg».proof.Proof.KerSpec
import proofs.«103415_j37580963840255_1_alg».proof.Proof.RefSpec
import proofs.«103415_j37580963840255_1_alg».proof.Proof.RowBlock
import proofs.«103415_j37580963840255_1_alg».proof.Proof.Restrict
import Idealize.ShloMosaic.Lib.Pipeline.Value
import Idealize.ShloMosaic.Lib.StableHlo.Run

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.Pipeline (Dat)
open Cert.KernelIdeal.Facts₀ Izhikevich

/-- The zero offsets of a whole-block access, however spelt. -/
theorem hz : (![0, 0] : Fin 2 → Nat) = fun _ => 0 := funext fun a => by fin_cases a <;> rfl

section Generic
variable {F : FTy → Type} [FloatOps F]

set_option maxHeartbeats 1000000 in
/-- What the body leaves in the output block is the recurrence's fifth-step spikes of the five staged blocks: its one
    store covers the block, its loads read whole blocks, and the stored value unfolds to the recurrence operation by
    operation. -/
theorem out_eq (x0 : Vec F S512x2048 .f32) (x1 : Vec F S2048x512 .f32) (x2 : Vec F S512x512 .f32)
    (x3 x4 : Vec F S1x512 .f32) : out0_5 x0 x1 x2 x3 x4 = Spec.result x0 x1 x2 x3 x4 := by
  unfold out0_5
  rw [View.canon_unit_zero hz]
  simp only [View.ld_unit_zero (S := S512x2048) hz, View.ld_unit_zero (S := S2048x512) hz,
    View.ld_unit_zero (S := S512x512) hz, View.ld_unit_zero (S := S1x512) hz]
  rfl
end Generic

variable (m : (ℓ : Loc nD τ sig) → Buf (Elt Ideal) ℓ) (ρ : Dev nD → PrngReg)

/-- The five argument arrays as launched. -/
abbrev a0 (c : Dev nD) : FVec Ideal S16384x2048 .f32 := m ((c : Thread nD τ).loc main_arg0)
abbrev a1 (c : Dev nD) : FVec Ideal S512x2048 .f32 := m ((c : Thread nD τ).loc main_arg1)
abbrev a2 (c : Dev nD) : FVec Ideal S512x512 .f32 := m ((c : Thread nD τ).loc main_arg2)
abbrev a3 (c : Dev nD) : FVec Ideal S512 .f32 := m ((c : Thread nD τ).loc main_arg3)
abbrev a4 (c : Dev nD) : FVec Ideal S512 .f32 := m ((c : Thread nD τ).loc main_arg4)

/-- The staged blocks at a point, at their literal types. -/
abbrev xb0 (c : Dev nD) (t : Fin cfg0.N) : Vec Ideal S512x2048 .f32 := iblk m c 0 t
abbrev xb1 (c : Dev nD) (t : Fin cfg0.N) : Vec Ideal S2048x512 .f32 := iblk m c 1 t
abbrev xb2 (c : Dev nD) (t : Fin cfg0.N) : Vec Ideal S512x512 .f32 := iblk m c 2 t
abbrev xb3 (c : Dev nD) (t : Fin cfg0.N) : Vec Ideal S1x512 .f32 := iblk m c 3 t
abbrev xb4 (c : Dev nD) (t : Fin cfg0.N) : Vec Ideal S1x512 .f32 := iblk m c 4 t

/-- The grid point as a block number. -/
def tt (t : Fin cfg0.N) : Fin 32 := ⟨t.val, t.isLt⟩

/-- The index maps over the grid: the input spikes and the output move one block of rows per point; the other four
    windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the host operations before the call leave in the four re-laid operands. -/
theorem V_v0 (c : Dev nD) : (V m c main_v0 : S2048x512.Idx → EReal) = transpose S2048x512 [1, 0] (a1 m c) Facts₀.transposes_S512x2048_S2048x512_1_0 := by
  dsimp only [Gen.V, Gen.hostOps0]; after_results
theorem V_v1 (c : Dev nD) : (V m c main_v1 : S512x512.Idx → EReal) = transpose S512x512 [1, 0] (a2 m c) Facts₀.transposes_S512x512_S512x512_1_0 := by
  dsimp only [Gen.V, Gen.hostOps0]; after_results
theorem V_v2 (c : Dev nD) : (V m c main_v2 : S1x512.Idx → EReal) = shapeCast S1x512 (a3 m c) Facts₀.shapeCasts_S512_S1x512 := by
  dsimp only [Gen.V, Gen.hostOps0]; after_results; rfl
theorem V_v3 (c : Dev nD) : (V m c main_v3 : S1x512.Idx → EReal) = shapeCast S1x512 (a4 m c) Facts₀.shapeCasts_S512_S1x512 := by
  dsimp only [Gen.V, Gen.hostOps0]; after_results; rfl

/-- Input window 0's block at point `t` is row block `t` of the first argument. -/
theorem xb0_eq (c : Dev nD) (t : Fin cfg0.N) : xb0 m c t = rowBlock (tt t) (a0 m c) := by
  obtain ⟨e00, e01, -⟩ := idx_facts t
  funext y
  show V m c main_arg0 (((cfg0.win 0).blk t).view.emb y) = a0 m c (rowIdx (tt t) y)
  rw [V_main_arg0]
  refine congrArg (a0 m c) ?_
  funext a; apply Fin.ext
  match a with
  | ⟨0, _⟩ => show win0_0.index t (0 : Fin 2) * 512 + 1 * (y 0).val = 512 * t.val + (y 0).val; omega
  | ⟨1, _⟩ => show win0_0.index t (1 : Fin 2) * 2048 + 1 * (y 1).val = (y 1).val; omega

/-- Windows 1 to 4 stage their whole arrays at every point. -/
theorem xb1_eq (c : Dev nD) (t : Fin cfg0.N) :
    xb1 m c t = transpose S2048x512 [1, 0] (a1 m c) Facts₀.transposes_S512x2048_S2048x512_1_0 := by
  obtain ⟨-, -, e0, e1, -⟩ := idx_facts t
  rw [← V_v0]
  funext y
  show (V m c main_v0 : S2048x512.Idx → EReal) (((cfg0.win 1).blk t).view.emb y) = (V m c main_v0 : S2048x512.Idx → EReal) y
  refine congrArg (V m c main_v0 : S2048x512.Idx → EReal) ?_
  funext a; apply Fin.ext
  match a with
  | ⟨0, _⟩ => show win0_1.index t (0 : Fin 2) * 2048 + 1 * (y 0).val = (y 0).val; omega
  | ⟨1, _⟩ => show win0_1.index t (1 : Fin 2) * 512 + 1 * (y 1).val = (y 1).val; omega

theorem xb2_eq (c : Dev nD) (t : Fin cfg0.N) :
    xb2 m c t = transpose S512x512 [1, 0] (a2 m c) Facts₀.transposes_S512x512_S512x512_1_0 := by
  obtain ⟨-, -, -, -, e0, e1, -⟩ := idx_facts t
  rw [← V_v1]
  funext y
  show (V m c main_v1 : S512x512.Idx → EReal) (((cfg0.win 2).blk t).view.emb y) = (V m c main_v1 : S512x512.Idx → EReal) y
  refine congrArg (V m c main_v1 : S512x512.Idx → EReal) ?_
  funext a; apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem xb3_eq (c : Dev nD) (t : Fin cfg0.N) :
    xb3 m c t = shapeCast S1x512 (a3 m c) Facts₀.shapeCasts_S512_S1x512 := by
  obtain ⟨-, -, -, -, -, -, e0, e1, -⟩ := idx_facts t
  rw [← V_v2]
  funext y
  show (V m c main_v2 : S1x512.Idx → EReal) (((cfg0.win 3).blk t).view.emb y) = (V m c main_v2 : S1x512.Idx → EReal) y
  refine congrArg (V m c main_v2 : S1x512.Idx → EReal) ?_
  funext a; apply Fin.ext
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem xb4_eq (c : Dev nD) (t : Fin cfg0.N) :
    xb4 m c t = shapeCast S1x512 (a4 m c) Facts₀.shapeCasts_S512_S1x512 := by
  obtain ⟨-, -, -, -, -, -, -, -, e0, e1, -⟩ := idx_facts t
  rw [← V_v3]
  funext y
  show (V m c main_v3 : S1x512.Idx → EReal) (((cfg0.win 4).blk t).view.emb y) = (V m c main_v3 : S1x512.Idx → EReal) y
  refine congrArg (V m c main_v3 : S1x512.Idx → EReal) ?_
  funext a; apply Fin.ext
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- The reference's result of the launched arguments: what the output array ends holding. -/
abbrev G (c : Dev nD) : FVec Ideal S16384x512 .f32 :=
  Cert.ReferenceIdeal.Spec.result (F := Ideal) (a0 m c) (a1 m c) (a2 m c) (a3 m c) (a4 m c)

/-- What point `t` writes back is block `t` of `G`. -/
theorem flushed_eq (c : Dev nD) (t : Fin cfg0.N) :
    (dats m 0 c).flushed 5 t = ((cfg0.win 5).blk t).view.read (Elt Ideal) (G m c) := by
  obtain ⟨-, -, -, -, -, -, -, -, -, -, e0, e1⟩ := idx_facts t
  rw [Value.flushed5]
  funext j
  show out0_5 (xb0 m c t) (xb1 m c t) (xb2 m c t) (xb3 m c t) (xb4 m c t) j = G m c (((cfg0.win 5).blk t).view.emb j)
  rw [out_eq, xb0_eq, xb1_eq, xb2_eq, xb3_eq, xb4_eq, ← Cert.Blocks.rowBlock_result, rowBlock_apply]
  refine congrArg (G m c) ?_
  funext a; apply Fin.ext
  match a with
  | ⟨0, _⟩ => show 512 * t.val + (j 0).val = win0_5.index t (0 : Fin 2) * 512 + 1 * (j 0).val; omega
  | ⟨1, _⟩ => show (j 1).val = win0_5.index t (1 : Fin 2) * 512 + 1 * (j 1).val; omega

/-- An index of the array is in point `t`'s block iff each coordinate is in the block's range on its axis. -/
theorem mem_blk (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v4).slice (win0_5.rect t)).set ↔ _
  rw [View.set_slice_whole, Rect.mem_set_unit]
  exact Iff.rfl

/-- Every row lies in the block of its quotient by 512. -/
theorem cover (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  refine ⟨⟨(i 0).val / 512, by show (i 0).val / 512 < 32; omega⟩, flush0_5 _, ?_⟩
  obtain ⟨-, -, -, -, -, -, -, -, -, -, e0, e1⟩ := idx_facts ⟨(i 0).val / 512, by show (i 0).val / 512 < 32; omega⟩
  rw [mem_blk]
  intro a
  match a with
  | ⟨0, _⟩ => show win0_5.index _ (0 : Fin 2) * 512 ≤ (i 0).val ∧ (i 0).val < win0_5.index _ (0 : Fin 2) * 512 + 512; rw [e0]; show (i 0).val / 512 * 512 ≤ (i 0).val ∧ (i 0).val < (i 0).val / 512 * 512 + 512; omega
  | ⟨1, _⟩ => show win0_5.index _ (1 : Fin 2) * 512 ≤ (i 1).val ∧ (i 1).val < win0_5.index _ (1 : Fin 2) * 512 + 512; rw [e1]; omega

/-- The output array after the run is `G`. -/
theorem final (c : Dev nD) : (dats m 0 c).arrAt 5 cfg0.N = G m c :=
  (dats m 0 c).arrAt_eq_of_cover 5 (G m c) (fun t _ => flushed_eq m c t) cover

/-- The kernel's run with the output array named: the reference's result of the launched arguments. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.HandValue

end
-- ==== Proof.RefRun.lean ====
/-
  The host program's run, read stretch by stretch.

  @main is a straight line of 294 operations: a prefix of 9 operations (the query current, and the initial
  potential and recovery: the two length-512 vectors repeated on every row) followed by five stretches of 57
  operations. Each stretch is ONE step of the Izhikevich recurrence in the host's spelling: it reads a
  potential buffer and a recovery buffer, writes the next potential and the next recovery, and leaves the
  query current and the program's arguments as they were. The fifth stretch's spike vector of its Euler potential
  is the program's result. Folding the five stretches over the launch contents gives the recurrence's
  `spikes5` of the five arguments.
-/
import proofs.«103415_j37580963840255_1_alg».proof.Proof.RefOps
import proofs.«103415_j37580963840255_1_alg».proof.Proof.RefSpec
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- One step of the host's recurrence from recurrent weights `w`, query current `q` and the state `(v, u)`. -/
abbrev hostStep (w : FVec F S512x512 .f32) (q v u : FVec F S16384x512 .f32) :
    FVec F S16384x512 .f32 × FVec F S16384x512 .f32 :=
  Izhikevich.step Spec.C Spec.I (Spec.P w) q (v, u)

/-! ## The prefix: the query current and the initial state -/

/-- After the prefix the buffer of `%3` holds the query current of the first two arguments. -/
theorem pre_q (V : Valuation τ sig (Elt F)) :
    after opsPre V (Proc.devRef .tc main_v3) = Spec.Q (F := F) (V (Proc.devRef .tc main_arg0)) (V (Proc.devRef .tc main_arg1)) := by
  after_results_simp <;> rfl

/-- After the prefix the buffer of `%4` holds the initial potential on every row. -/
theorem pre_v (V : Valuation τ sig (Elt F)) :
    after opsPre V (Proc.devRef .tc main_v4) = Spec.rowsOf (F := F) (V (Proc.devRef .tc main_arg3)) := by
  after_results_simp <;> rfl

/-- After the prefix the buffer of `%5` holds the initial recovery on every row. -/
theorem pre_u (V : Valuation τ sig (Elt F)) :
    after opsPre V (Proc.devRef .tc main_v5) = Spec.rowsOf (F := F) (V (Proc.devRef .tc main_arg4)) := by
  after_results_simp <;> rfl

/-- The prefix leaves the recurrent weights as they were. -/
theorem pre_w (V : Valuation τ sig (Elt F)) :
    after opsPre V (Proc.devRef .tc main_arg2) = V (Proc.devRef .tc main_arg2) := by
  after_results_simp <;> rfl

/-! ## The five steps

Each stretch computes, operation by operation, the Euler half-step, the reset where the new potential spiked and
the clamp: its potential and recovery results are the two components of `hostStep` at the contents it found, and
neither the query current nor the recurrent weights are written. -/

/-- The first step's potential, from `%4` and `%5`. -/
theorem step1_v (V : Valuation τ sig (Elt F)) :
    after opsStep1 V (Proc.devRef .tc main_v43)
      = (hostStep (V (Proc.devRef .tc main_arg2)) (V (Proc.devRef .tc main_v3)) (V (Proc.devRef .tc main_v4)) (V (Proc.devRef .tc main_v5))).1 := by
  after_results_simp <;> rfl

/-- The first step's recovery. -/
theorem step1_u (V : Valuation τ sig (Elt F)) :
    after opsStep1 V (Proc.devRef .tc main_v42)
      = (hostStep (V (Proc.devRef .tc main_arg2)) (V (Proc.devRef .tc main_v3)) (V (Proc.devRef .tc main_v4)) (V (Proc.devRef .tc main_v5))).2 := by
  after_results_simp <;> rfl

theorem step1_q (V : Valuation τ sig (Elt F)) : after opsStep1 V (Proc.devRef .tc main_v3) = V (Proc.devRef .tc main_v3) := by
  after_results_simp <;> rfl

theorem step1_w (V : Valuation τ sig (Elt F)) : after opsStep1 V (Proc.devRef .tc main_arg2) = V (Proc.devRef .tc main_arg2) := by
  after_results_simp <;> rfl

/-- The second step's potential, from `%43` and `%42`. -/
theorem step2_v (V : Valuation τ sig (Elt F)) :
    after opsStep2 V (Proc.devRef .tc main_v80)
      = (hostStep (V (Proc.devRef .tc main_arg2)) (V (Proc.devRef .tc main_v3)) (V (Proc.devRef .tc main_v43)) (V (Proc.devRef .tc main_v42))).1 := by
  after_results_simp <;> rfl

/-- The second step's recovery. -/
theorem step2_u (V : Valuation τ sig (Elt F)) :
    after opsStep2 V (Proc.devRef .tc main_v79)
      = (hostStep (V (Proc.devRef .tc main_arg2)) (V (Proc.devRef .tc main_v3)) (V (Proc.devRef .tc main_v43)) (V (Proc.devRef .tc main_v42))).2 := by
  after_results_simp <;> rfl

theorem step2_q (V : Valuation τ sig (Elt F)) : after opsStep2 V (Proc.devRef .tc main_v3) = V (Proc.devRef .tc main_v3) := by
  after_results_simp <;> rfl

theorem step2_w (V : Valuation τ sig (Elt F)) : after opsStep2 V (Proc.devRef .tc main_arg2) = V (Proc.devRef .tc main_arg2) := by
  after_results_simp <;> rfl

/-- The third step's potential, from `%80` and `%79`. -/
theorem step3_v (V : Valuation τ sig (Elt F)) :
    after opsStep3 V (Proc.devRef .tc main_v117)
      = (hostStep (V (Proc.devRef .tc main_arg2)) (V (Proc.devRef .tc main_v3)) (V (Proc.devRef .tc main_v80)) (V (Proc.devRef .tc main_v79))).1 := by
  after_results_simp <;> rfl

/-- The third step's recovery. -/
theorem step3_u (V : Valuation τ sig (Elt F)) :
    after opsStep3 V (Proc.devRef .tc main_v116)
      = (hostStep (V (Proc.devRef .tc main_arg2)) (V (Proc.devRef .tc main_v3)) (V (Proc.devRef .tc main_v80)) (V (Proc.devRef .tc main_v79))).2 := by
  after_results_simp <;> rfl

theorem step3_q (V : Valuation τ sig (Elt F)) : after opsStep3 V (Proc.devRef .tc main_v3) = V (Proc.devRef .tc main_v3) := by
  after_results_simp <;> rfl

theorem step3_w (V : Valuation τ sig (Elt F)) : after opsStep3 V (Proc.devRef .tc main_arg2) = V (Proc.devRef .tc main_arg2) := by
  after_results_simp <;> rfl

/-- The fourth step's potential, from `%117` and `%116`. -/
theorem step4_v (V : Valuation τ sig (Elt F)) :
    after opsStep4 V (Proc.devRef .tc main_v154)
      = (hostStep (V (Proc.devRef .tc main_arg2)) (V (Proc.devRef .tc main_v3)) (V (Proc.devRef .tc main_v117)) (V (Proc.devRef .tc main_v116))).1 := by
  after_results_simp <;> rfl

/-- The fourth step's recovery. -/
theorem step4_u (V : Valuation τ sig (Elt F)) :
    after opsStep4 V (Proc.devRef .tc main_v153)
      = (hostStep (V (Proc.devRef .tc main_arg2)) (V (Proc.devRef .tc main_v3)) (V (Proc.devRef .tc main_v117)) (V (Proc.devRef .tc main_v116))).2 := by
  after_results_simp <;> rfl

theorem step4_q (V : Valuation τ sig (Elt F)) : after opsStep4 V (Proc.devRef .tc main_v3) = V (Proc.devRef .tc main_v3) := by
  after_results_simp <;> rfl

theorem step4_w (V : Valuation τ sig (Elt F)) : after opsStep4 V (Proc.devRef .tc main_arg2) = V (Proc.devRef .tc main_arg2) := by
  after_results_simp <;> rfl

/-- The fifth stretch's spike vector: the spikes of the Euler potential from `%154` and `%153`. -/
theorem step5_s (V : Valuation τ sig (Elt F)) :
    after opsStep5 V (Proc.devRef .tc main_v184)
      = Izhikevich.spikeOf (Spec.C (F := F)) Spec.I (Izhikevich.vEuler Spec.C Spec.I (Spec.P (V (Proc.devRef .tc main_arg2)))
          (V (Proc.devRef .tc main_v3)) (V (Proc.devRef .tc main_v154)) (V (Proc.devRef .tc main_v153))) := by
  after_results_simp <;> rfl

/-! ## The whole line -/

/-- The fold of all 294 operations at the result buffer: the recurrence's fifth-step spikes of the five arguments. -/
theorem after_ops_result (V : Valuation τ sig (Elt F)) :
    after ops V (Proc.devRef .tc main_v184)
      = Spec.result (F := F) (V (Proc.devRef .tc main_arg0)) (V (Proc.devRef .tc main_arg1)) (V (Proc.devRef .tc main_arg2))
          (V (Proc.devRef .tc main_arg3)) (V (Proc.devRef .tc main_arg4)) := by
  simp only [ops, StableHlo.after_append]
  rw [step5_s, step4_q, step4_w, step4_v, step4_u, step3_q, step3_w, step3_v, step3_u, step2_q, step2_w, step2_v, step2_u,
    step1_q, step1_w, step1_v, step1_u, pre_q, pre_w, pre_v, pre_u]
  rfl

/-- No operation of the line writes an argument. -/
theorem after_ops_arg0 (V : Valuation τ sig (Elt F)) : after ops V (Proc.devRef .tc main_arg0) = V (Proc.devRef .tc main_arg0) := by
  simp only [ops, StableHlo.after_append]; after_results_simp <;> rfl
theorem after_ops_arg1 (V : Valuation τ sig (Elt F)) : after ops V (Proc.devRef .tc main_arg1) = V (Proc.devRef .tc main_arg1) := by
  simp only [ops, StableHlo.after_append]; after_results_simp <;> rfl
theorem after_ops_arg2 (V : Valuation τ sig (Elt F)) : after ops V (Proc.devRef .tc main_arg2) = V (Proc.devRef .tc main_arg2) := by
  simp only [ops, StableHlo.after_append]; after_results_simp <;> rfl
theorem after_ops_arg3 (V : Valuation τ sig (Elt F)) : after ops V (Proc.devRef .tc main_arg3) = V (Proc.devRef .tc main_arg3) := by
  simp only [ops, StableHlo.after_append]; after_results_simp <;> rfl
theorem after_ops_arg4 (V : Valuation τ sig (Elt F)) : after ops V (Proc.devRef .tc main_arg4) = V (Proc.devRef .tc main_arg4) := by
  simp only [ops, StableHlo.after_append]; after_results_simp <;> rfl

/-! ## Every operation determines its results -/

theorem opsPre_fresh : ∀ op ∈ (opsPre : List (HloOp τ sig (Elt F))), op.fresh = ∅ := by
  intro _ h; (repeat (cases h with | head => rfl | tail _ h => ?_)); exact nomatch h
theorem opsStep1_fresh : ∀ op ∈ (opsStep1 : List (HloOp τ sig (Elt F))), op.fresh = ∅ := by
  intro _ h; (repeat (cases h with | head => rfl | tail _ h => ?_)); exact nomatch h
theorem opsStep2_fresh : ∀ op ∈ (opsStep2 : List (HloOp τ sig (Elt F))), op.fresh = ∅ := by
  intro _ h; (repeat (cases h with | head => rfl | tail _ h => ?_)); exact nomatch h
theorem opsStep3_fresh : ∀ op ∈ (opsStep3 : List (HloOp τ sig (Elt F))), op.fresh = ∅ := by
  intro _ h; (repeat (cases h with | head => rfl | tail _ h => ?_)); exact nomatch h
theorem opsStep4_fresh : ∀ op ∈ (opsStep4 : List (HloOp τ sig (Elt F))), op.fresh = ∅ := by
  intro _ h; (repeat (cases h with | head => rfl | tail _ h => ?_)); exact nomatch h
theorem opsStep5_fresh : ∀ op ∈ (opsStep5 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h
  exacts [opsPre_fresh op h, opsStep1_fresh op h, opsStep2_fresh op h, opsStep3_fresh op h, opsStep4_fresh op h,
    opsStep5_fresh op h]

/-! ## The run -/

/-- On every device, for any float values, from any memory with zero counters: every weakly fair execution of
    @main terminates with the result buffer at the recurrence's fifth-step spikes of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v184)
          = Cert.ReferenceIdeal.Spec.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v184).trans (after_ops_result _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _)⟩)
    (run_seq scopedRefs_eq scopedSems_eq defs main (fun _ => ops) main_eq (fun _ => ops_sub) m ρ (fun _ => ops_fresh))

end Cert.ReferenceIdeal.HandRun

end
-- ==== Proof.lean ====
/-
  The five conjuncts of `Cert.Claim` for the CA3 attractor kernel against its jnp reference.

  Both programs compute the 0/1 spikes of the fifth step of an Izhikevich recurrence on 16384 independent rows of 512
  cells: a constant query current Q = (dg · W_mossyᵀ) · 10, and in each step a recurrent current (spikes of v) · W_recᵀ,
  an Euler half-step of (v, u), a reset of v to −55 and a jump of u by 4 where the new v reaches 30, and a clamp of
  v to [−90, 30] (Recurrence.lean). They spell the same operations in the same order with the same constants; the
  kernel works on 32 blocks of 512 rows with matmuls into a zero accumulator where the reference works on the whole
  batch with dot_generals, and every row's result depends only on that row of dg, so block t of the reference's
  result is the kernel body's result of block t of the inputs (Restrict.lean). At the extended reals both contractions
  are the same finite sums of products, a mask converts to 0 or 1 either way, and every other operation is the same
  elementwise operation: no law that needs finite inputs is used, so the precondition is never opened.

  `frame_Kernel` and `frame_KernelIdeal` are the generated frame certificates. `frame_ReferenceIdeal` is the
  reference's run (RefRun.lean) with its result dropped. `preserves` has no ledger entry. `algebraic`: the kernel's
  output array ends at the reference's result of the launched arguments (KernelValue.lean), the reference's result
  buffer at the same function of its own arguments (RefRun.lean), and the arguments agree.
-/
import proofs.«103415_j37580963840255_1_alg».proof.Defs
import proofs.«103415_j37580963840255_1_alg».proof.Proof.Gen.Kernel
import proofs.«103415_j37580963840255_1_alg».proof.Proof.Gen.Kernel.Skeleton
import proofs.«103415_j37580963840255_1_alg».proof.Proof.Gen.Kernel.Launch
import proofs.«103415_j37580963840255_1_alg».proof.Proof.Gen.Kernel.Points
import proofs.«103415_j37580963840255_1_alg».proof.Proof.Gen.Kernel.Frame
import proofs.«103415_j37580963840255_1_alg».proof.Proof.Gen.KernelIdeal
import proofs.«103415_j37580963840255_1_alg».proof.Proof.Gen.KernelIdeal.Skeleton
import proofs.«103415_j37580963840255_1_alg».proof.Proof.Gen.KernelIdeal.Launch
import proofs.«103415_j37580963840255_1_alg».proof.Proof.Gen.KernelIdeal.Points
import proofs.«103415_j37580963840255_1_alg».proof.Proof.Gen.KernelIdeal.Frame
import proofs.«103415_j37580963840255_1_alg».proof.Proof.Gen.ReferenceIdeal
import proofs.«103415_j37580963840255_1_alg».proof.Proof.Gen.Pre_finite_inputs
import proofs.«103415_j37580963840255_1_alg».proof.Proof.Gen.KernelIdeal.Value
import proofs.«103415_j37580963840255_1_alg».proof.Proof.KernelValue
import proofs.«103415_j37580963840255_1_alg».proof.Proof.RefRun
import Idealize.ShloMosaic.Adequacy
import Idealize.ShloMosaic.Init

noncomputable section

namespace Cert.Proof

open Idealize.ShloMosaic Idealize.SL.Sem Cert.Kernel

/-- The word-level kernel runs and leaves its arguments as launched: the generated frame certificate. -/
theorem frame_k : Cert.frame_Kernel := fun m ρ _ => Cert.Kernel.Gen.frame m ρ

/-- The idealized kernel runs and leaves its arguments as launched: the generated frame certificate. -/
theorem frame_ki : Cert.frame_KernelIdeal := fun m ρ _ => Cert.KernelIdeal.Gen.frame m ρ

/-- The idealized reference runs and leaves its arguments as launched: its run, with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the five arguments both programs end with the same result array: the reference's
    recurrence over the whole batch, of the kernel's launched arguments. -/
theorem algebraic : Cert.algebraic_KernelIdeal_ReferenceIdeal := by
  intro m ρ m' ρ' _ hagree
  refine ⟨fun c => Cert.KernelIdeal.HandValue.G m c, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
